-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S1000000x64 : Shape := ⟨2, ![1000000, 64]⟩
abbrev S100000x128 : Shape := ⟨2, ![100000, 128]⟩
abbrev S1000000 : Shape := ⟨1, ![1000000]⟩
abbrev S100000 : Shape := ⟨1, ![100000]⟩
abbrev S192x256 : Shape := ⟨2, ![192, 256]⟩
abbrev S256 : Shape := ⟨1, ![256]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S1000000 : S_.BroadcastsInDim S1000000 (![] : Fin 0 → Fin S1000000.rank)
  reducesTo_S1000000_S_d0 : S1000000.ReducesTo [0] S_
  bcast_S_S100000 : S_.BroadcastsInDim S100000 (![] : Fin 0 → Fin S100000.rank)
  reducesTo_S100000_S_d0 : S100000.ReducesTo [0] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S192x256 .f32) (main_arg6 : FVec F S256 .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S192x256 .f32 := Host.absf main_arg5
  let main_cst_6 : FVec F S_ .f32 := constant S_ .f32 0x7F800000#32
  let main_v20 : FVec F S192x256 .f32 := broadcastInDim S192x256 ![] bcast_S_S192x256 main_cst_6
  let main_v21 : IVec S192x256 1 := cmpf .olt main_v19 main_v20
  let main_c_7 : IVec S_ 1 := constantI S_ 1 1#1
  let main_v22 : IVec S_ 1 := (fun x v => Host.reduce IntOp.andi x v reducesTo_S192x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : IVec S2x1000000 32) (main_arg1 : FVec F S1000000x64 .f32) (main_arg2 : FVec F S100000x128 .f32) (main_arg3 : FVec F S1000000 .f32) (main_arg4 : FVec F S100000 .f32) (main_arg5 : FVec F S192x256 .f32) (main_arg6 : FVec F S256 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S1000000 .f32 := Host.absf main_arg3
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S100000 .f32 := Host.absf main_arg4
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg5 main_arg6 main_v13 main_v16
-- ==== Kernel.lean ====
abbrev S2x1000000 : Shape := ⟨2, ![2, 1000000]⟩
abbrev S1000000x64 : Shape := ⟨2, ![1000000, 64]⟩
abbrev S100000x128 : Shape := ⟨2, ![100000, 128]⟩
abbrev S1000000 : Shape := ⟨1, ![1000000]⟩
abbrev S100000 : Shape := ⟨1, ![100000]⟩
abbrev S192x256 : Shape := ⟨2, ![192, 256]⟩
abbrev S256 : Shape := ⟨1, ![256]⟩
abbrev S1000000x1 : Shape := ⟨2, ![1000000, 1]⟩
abbrev S1x1000000 : Shape := ⟨2, ![1, 1000000]⟩
abbrev S_ : Shape := ⟨0, ![]⟩
abbrev S100000x64 : Shape := ⟨2, ![100000, 64]⟩
abbrev S100000x1 : Shape := ⟨2, ![100000, 1]⟩
abbrev S100000x192 : Shape := ⟨2, ![100000, 192]⟩
abbrev S1x256 : Shape := ⟨2, ![1, 256]⟩
abbrev S100000x256 : Shape := ⟨2, ![100000, 256]⟩
abbrev S2000x192 : Shape := ⟨2, ![2000, 192]⟩
abbrev S2000x256 : Shape := ⟨2, ![2000, 256]⟩

abbrev nBuf : Space → Nat
  | .hbm => 34
  | .vmem => 6
  | .smem => 0
  | _ => 0

abbrev bufTy : (tb : Table) → Fin (tcTables nBuf tb) → BufTy
  | .hbm, ⟨0, _⟩ => ⟨S2x1000000, .i32⟩
  | .hbm, ⟨1, _⟩ => ⟨S1000000x64, .f32⟩
  | .hbm, ⟨2, _⟩ => ⟨S100000x128, .f32⟩
  | .hbm, ⟨3, _⟩ => ⟨S1000000, .f32⟩
  | .hbm, ⟨4, _⟩ => ⟨S100000, .f32⟩
  | .hbm, ⟨5, _⟩ => ⟨S192x256, .f32⟩
  | .hbm, ⟨6, _⟩ => ⟨S256, .f32⟩
  | .hbm, ⟨7, _⟩ => ⟨S1000000x1, .f32⟩
  | .hbm, ⟨8, _⟩ => ⟨S1000000x64, .f32⟩
  | .hbm, ⟨9, _⟩ => ⟨S1000000x64, .f32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S100000x64, .f32⟩
  | .hbm, ⟨14, _⟩ => ⟨S1000000x1, .i32⟩
  | .hbm, ⟨15, _⟩ => ⟨S100000x64, .f32⟩
  | .hbm, ⟨16, _⟩ => ⟨S_, .f32⟩
  | .hbm, ⟨17, _⟩ => ⟨S1000000, .f32⟩
  | .hbm, ⟨18, _⟩ => ⟨S_, .f32⟩
  | .hbm, ⟨19, _⟩ => ⟨S100000, .f32⟩
  | .hbm, ⟨20, _⟩ => ⟨S1000000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S100000x64, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S100000x192, .f32⟩
  | .hbm, ⟨32, _⟩ => ⟨S1x256, .f32⟩
  | .hbm, ⟨33, _⟩ => ⟨S100000x256, .f32⟩
  | .local _ .vmem, ⟨0, _⟩ => ⟨S2000x192, .f32⟩
  | .local _ .vmem, ⟨1, _⟩ => ⟨S2000x192, .f32⟩
  | .local _ .vmem, ⟨2, _⟩ => ⟨S192x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  slices_S2x1000000_S1x1000000_0_0 : S2x1000000.Slices ![0, 0] S1x1000000
  shapeCasts_S1x1000000_S1000000 : S1x1000000.ShapeCasts S1000000
  bcast_S_S100000x64 : S_.BroadcastsInDim S100000x64 (![] : Fin 0 → Fin S100000x64.rank)
  bcast_S_S1000000 : S_.BroadcastsInDim S1000000 (![] : Fin 0 → Fin S1000000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x128_S100000x64_S100000x192_d1 : Shape.Concatenates [S100000x128, S100000x64] S100000x192 1
  shapeCasts_S256_S1x256 : S256.ShapeCasts S1x256
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  bitsLt_bf16_f32 : FTy.bits .bf16 < FTy.bits .f32
  inb_S192x256_S192x256_0_0 : ∀ a, (![0, 0] : Fin 2 → Nat) a + S192x256.size a ≤ S192x256.size a
  h_S192x256 : 0 < S192x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S2000x192_S192x256_S2000x256_1_0_0_1_n_n_wf : DotDims.WF S2000x192 S192x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x192.size a ≤ S100000x192.size a
  hwx0_0 : ∀ i : grid0.Coords, EltTy.bits .f32 = 32 ∨ (Rect.block (s := S100000x192) S2000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x256.size a ≤ S192x256.size a
  hwx0_1 : ∀ i : grid0.Coords, EltTy.bits .f32 = 32 ∨ (Rect.block (s := S192x256) S192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)

variable [Facts₀]

def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S2000x192_S192x256_S2000x256_1_0_0_1_n_n : DotDims S2000x192 S192x256 S2000x256 where
  lhsContracting := [1]
  rhsContracting := [0]
  lhsNonContracting := [0]
  rhsNonContracting := [1]
  lhsBatch := []
  rhsBatch := []
  wf := dot_S2000x192_S192x256_S2000x256_1_0_0_1_n_n_wf

abbrev win0_0 : Pipeline.Window sig grid0 :=
  Pipeline.Window.ofSpec (Memref.whole main_v20) S2000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x1000000 : Shape := ⟨2, ![2, 1000000]⟩
abbrev S1000000x64 : Shape := ⟨2, ![1000000, 64]⟩
abbrev S100000x128 : Shape := ⟨2, ![100000, 128]⟩
abbrev S1000000 : Shape := ⟨1, ![1000000]⟩
abbrev S100000 : Shape := ⟨1, ![100000]⟩
abbrev S192x256 : Shape := ⟨2, ![192, 256]⟩
abbrev S256 : Shape := ⟨1, ![256]⟩
abbrev S1000000x1 : Shape := ⟨2, ![1000000, 1]⟩
abbrev S1x1000000 : Shape := ⟨2, ![1, 1000000]⟩
abbrev S_ : Shape := ⟨0, ![]⟩
abbrev S100000x64 : Shape := ⟨2, ![100000, 64]⟩
abbrev S100000x1 : Shape := ⟨2, ![100000, 1]⟩
abbrev S100000x192 : Shape := ⟨2, ![100000, 192]⟩
abbrev S100000x256 : Shape := ⟨2, ![100000, 256]⟩
abbrev S1x256 : Shape := ⟨2, ![1, 256]⟩

abbrev nBuf : Space → Nat
  | .hbm => 39
  | .vmem => 0
  | .smem => 0
  | _ => 0

abbrev bufTy : (tb : Table) → Fin (tcTables nBuf tb) → BufTy
  | .hbm, ⟨0, _⟩ => ⟨S2x1000000, .i32⟩
  | .hbm, ⟨1, _⟩ => ⟨S1000000x64, .f32⟩
  | .hbm, ⟨2, _⟩ => ⟨S100000x128, .f32⟩
  | .hbm, ⟨3, _⟩ => ⟨S1000000, .f32⟩
  | .hbm, ⟨4, _⟩ => ⟨S100000, .f32⟩
  | .hbm, ⟨5, _⟩ => ⟨S192x256, .f32⟩
  | .hbm, ⟨6, _⟩ => ⟨S256, .f32⟩
  | .hbm, ⟨7, _⟩ => ⟨S1000000x1, .f32⟩
  | .hbm, ⟨8, _⟩ => ⟨S1000000x64, .f32⟩
  | .hbm, ⟨9, _⟩ => ⟨S1000000x64, .f32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S100000x64, .f32⟩
  | .hbm, ⟨14, _⟩ => ⟨S1000000x1, .i32⟩
  | .hbm, ⟨15, _⟩ => ⟨S100000x64, .f32⟩
  | .hbm, ⟨16, _⟩ => ⟨S_, .f32⟩
  | .hbm, ⟨17, _⟩ => ⟨S1000000, .f32⟩
  | .hbm, ⟨18, _⟩ => ⟨S_, .f32⟩
  | .hbm, ⟨19, _⟩ => ⟨S100000, .f32⟩
  | .hbm, ⟨20, _⟩ => ⟨S1000000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S100000x64, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S100000x192, .f32⟩
  | .hbm, ⟨32, _⟩ => ⟨S100000x256, .f32⟩
  | .hbm, ⟨33, _⟩ => ⟨S1x256, .f32⟩
  | .hbm, ⟨34, _⟩ => ⟨S100000x256, .f32⟩
  | .hbm, ⟨35, _⟩ => ⟨S100000x256, .f32⟩
  | .hbm, ⟨36, _⟩ => ⟨S_, .f32⟩
  | .hbm, ⟨37, _⟩ => ⟨S100000x256, .f32⟩
  | .hbm, ⟨38, _⟩ => ⟨S100000x256, .f32⟩
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_cst : Ref sig .tc := ⟨.hbm, 36, rfl⟩
abbrev main_call0_v0 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  slices_S2x1000000_S1x1000000_0_0 : S2x1000000.Slices ![0, 0] S1x1000000
  shapeCasts_S1x1000000_S1000000 : S1x1000000.ShapeCasts S1000000
  bcast_S_S100000x64 : S_.BroadcastsInDim S100000x64 (![] : Fin 0 → Fin S100000x64.rank)
  bcast_S_S1000000 : S_.BroadcastsInDim S1000000 (![] : Fin 0 → Fin S1000000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x128_S100000x64_S100000x192_d1 : Shape.Concatenates [S100000x128, S100000x64] S100000x192 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x192_S192x256_S100000x256_1_0_0_1_n_n_wf : DotDims.WF S100000x192 S192x256 S100000x256 [1] [0] [0] [1] [] []

variable [Facts₀]

def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x192_S192x256_S100000x256_1_0_0_1_n_n : DotDims S100000x192 S192x256 S100000x256 where
  lhsContracting := [1]
  rhsContracting := [0]
  lhsNonContracting := [0]
  rhsNonContracting := [1]
  lhsBatch := []
  rhsBatch := []
  wf := dot_S100000x192_S192x256_S100000x256_1_0_0_1_n_n_wf

class Facts : Prop extends Facts₀ where

variable [Facts]
-- ==== Proof.DenseRelu.lean ====
/-
  The layer both programs end with, as ONE function of its three operands. For a feature matrix `X` of 100000 rows and
  192 columns, a weight matrix `W` of 192 rows and 256 columns and a bias `b` of 256 entries,

      layer X W b (r, c) = max (∑ k < 192, X (r, k) · W (k, c) + b c) 0

  on the extended reals: an affine map of each row of `X`, rectified entry by entry. Row `r` of the result depends on row `r`
  of `X` only, which is why a program may compute it 2000 rows at a time: `rows` is the same formula on a block of 2000
  rows, and `rows_eq_layer` says that an entry of a block's `rows` is the matching entry of `layer X W b` as soon as the block's
  row is the matching row of `X`.
  No algebraic law is used: the sum over `k` is written once and read twice.
-/
import Idealize.ShloMosaic.PureOps.Ideal
import Idealize.ShloMosaic.Lib.ValueIdx

noncomputable section

open scoped BigOperators

namespace Cert.DenseRelu

open Idealize.ShloMosaic Idealize.ShloMosaic.ValueIdx

/-- `max (X · W + b) 0`, entry (r, c): row `r` of `X` against column `c` of `W`, plus `b c`, rectified. -/
def layer (X : (⟨2, ![100000, 192]⟩ : Shape).Idx → EReal) (W : (⟨2, ![192, 256]⟩ : Shape).Idx → EReal)
    (b : (⟨1, ![256]⟩ : Shape).Idx → EReal) : (⟨2, ![100000, 256]⟩ : Shape).Idx → EReal :=
  fun i => max ((∑ k : Fin 192, X (ix2 (i 0) k) * W (ix2 k (i 1))) + b (ix1 (i 1))) 0

/-- The same formula on a block of 2000 rows `x`, the bias given as a row vector `[1, 256]`. -/
def rows (x : (⟨2, ![2000, 192]⟩ : Shape).Idx → EReal) (W : (⟨2, ![192, 256]⟩ : Shape).Idx → EReal)
    (b : (⟨2, ![1, 256]⟩ : Shape).Idx → EReal) : (⟨2, ![2000, 256]⟩ : Shape).Idx → EReal :=
  fun j => max ((∑ k : Fin 192, x (ix2 (j 0) k) * W (ix2 k (j 1))) + b (ix2 (0 : Fin 1) (j 1))) 0

/-- Entry `(p, c)` of a block's `rows` is entry `(r, c)` of `layer` as soon as the block's row `p` is row `r` of `X`, the block's copy
    `w` of the weights agrees with `W` on column `c`, and the row vector holds `b c`. -/
theorem rows_eq_layer (X : (⟨2, ![100000, 192]⟩ : Shape).Idx → EReal) (W : (⟨2, ![192, 256]⟩ : Shape).Idx → EReal)
    (b : (⟨1, ![256]⟩ : Shape).Idx → EReal) (x : (⟨2, ![2000, 192]⟩ : Shape).Idx → EReal)
    (w : (⟨2, ![192, 256]⟩ : Shape).Idx → EReal) (b2 : (⟨2, ![1, 256]⟩ : Shape).Idx → EReal)
    (r : Fin 100000) (p : Fin 2000) (c : Fin 256)
    (hx : ∀ k : Fin 192, x (ix2 p k) = X (ix2 r k)) (hw : ∀ k : Fin 192, w (ix2 k c) = W (ix2 k c))
    (hb : b2 (ix2 (0 : Fin 1) c) = b (ix1 c)) :
    rows x w b2 (ix2 p c) = layer X W b (ix2 r c) := by
  show max ((∑ k : Fin 192, x (ix2 p k) * w (ix2 k c)) + b2 (ix2 (0 : Fin 1) c)) 0
     = max ((∑ k : Fin 192, X (ix2 r k) * W (ix2 k c)) + b (ix1 c)) 0
  rw [hb, Finset.sum_congr rfl fun k _ => by rw [hx k, hw k]]

end Cert.DenseRelu

end
-- ==== Proof.BlockLayer.lean ====
/-
  What the kernel body computes from the three blocks it loads, at the ideal values: a block `x` of 2000 rows of the feature
  matrix, the whole weight matrix `w` and the bias as a row vector `b`. The body narrows `x` and `w` to bf16 (the identity on
  extended reals), multiplies them into a zero accumulator (entry (p, c) is `∑ k, x (p, k) · w (k, c)`: the contraction index is
  the one shared axis of length 192), adds the bias row broadcast down the 2000 rows, and takes the maximum with a zero splat.
  Entry by entry that is `DenseRelu.rows x w b`.
-/
import proofs.«124739_j8229157339893_1_alg».proof.Proof.Gen.KernelIdeal.Skeleton
import proofs.«124739_j8229157339893_1_alg».proof.Proof.DenseRelu
import Idealize.ShloMosaic.Lib.Pipeline.Value
import Idealize.ShloMosaic.Lib.ValueIdx
import Idealize.ShloMosaic.PureOps.Ideal.Laws

noncomputable section

open scoped BigOperators

namespace Cert.KernelIdeal.BlockLayer

open Cert.KernelIdeal Cert.KernelIdeal.Gen Idealize.ShloMosaic Idealize.ShloMosaic.ValueIdx

/-! ## The matrix product's operand indices: output (p, c) and contraction index k read the left operand at (p, k), the right at (k, c) -/

theorem lhs_row (i : S2000x256.Idx) (q : dot_S2000x192_S192x256_S2000x256_1_0_0_1_n_n.contr.Idx) :
    (dot_S2000x192_S192x256_S2000x256_1_0_0_1_n_n.lhsIdx i q 0).val = (i 0).val := by
  unfold DotDims.lhsIdx
  rw [dif_neg (show ¬(0 : Fin S2000x192.rank) ∈ dot_S2000x192_S192x256_S2000x256_1_0_0_1_n_n.lhsBatch by decide), dif_pos (show (0 : Fin S2000x192.rank) ∈ dot_S2000x192_S192x256_S2000x256_1_0_0_1_n_n.lhsNonContracting by decide)]
  rfl
theorem lhs_col (i : S2000x256.Idx) (q : dot_S2000x192_S192x256_S2000x256_1_0_0_1_n_n.contr.Idx) :
    (dot_S2000x192_S192x256_S2000x256_1_0_0_1_n_n.lhsIdx i q 1).val = (q ⟨0, by decide⟩).val :=
  dot_S2000x192_S192x256_S2000x256_1_0_0_1_n_n.lhsIdx_val_of_single rfl i q
theorem rhs_row (i : S2000x256.Idx) (q : dot_S2000x192_S192x256_S2000x256_1_0_0_1_n_n.contr.Idx) :
    (dot_S2000x192_S192x256_S2000x256_1_0_0_1_n_n.rhsIdx i q 0).val = (q ⟨0, by decide⟩).val :=
  dot_S2000x192_S192x256_S2000x256_1_0_0_1_n_n.rhsIdx_val_of_single rfl i q
theorem rhs_col (i : S2000x256.Idx) (q : dot_S2000x192_S192x256_S2000x256_1_0_0_1_n_n.contr.Idx) :
    (dot_S2000x192_S192x256_S2000x256_1_0_0_1_n_n.rhsIdx i q 1).val = (i 1).val := by
  unfold DotDims.rhsIdx
  rw [dif_neg (show ¬(1 : Fin S192x256.rank) ∈ dot_S2000x192_S192x256_S2000x256_1_0_0_1_n_n.rhsBatch by decide), dif_pos (show (1 : Fin S192x256.rank) ∈ dot_S2000x192_S192x256_S2000x256_1_0_0_1_n_n.rhsNonContracting by decide)]
  rfl

/-- The product into the zero accumulator, at an entry: the sum over the shared axis. -/
theorem product_apply (x : FVec Ideal S2000x192 .bf16) (w : FVec Ideal S192x256 .bf16) (j : S2000x256.Idx) :
    matmul dot_S2000x192_S192x256_S2000x256_1_0_0_1_n_n none x w (constant (F := Ideal) S2000x256 .f32 0x00000000#32) j
      = ∑ k : Fin 192, x (ix2 (j 0) k) * w (ix2 k (j 1)) := by
  simp only [matmul]
  rw [Ideal.matmul_constant_zero_apply, ← Equiv.sum_comp (contrEquiv1 dot_S2000x192_S192x256_S2000x256_1_0_0_1_n_n 192 rfl rfl).symm]
  refine Finset.sum_congr rfl fun k _ => ?_
  have hk := contrEquiv1_symm_val dot_S2000x192_S192x256_S2000x256_1_0_0_1_n_n 192 rfl rfl k
  have el : dot_S2000x192_S192x256_S2000x256_1_0_0_1_n_n.lhsIdx j ((contrEquiv1 dot_S2000x192_S192x256_S2000x256_1_0_0_1_n_n 192 rfl rfl).symm k) = ix2 (j 0) k := funext fun a => Fin.ext (by
    match a with
    | ⟨0, _⟩ => exact lhs_row _ _
    | ⟨1, _⟩ => exact (lhs_col _ _).trans hk)
  have er : dot_S2000x192_S192x256_S2000x256_1_0_0_1_n_n.rhsIdx j ((contrEquiv1 dot_S2000x192_S192x256_S2000x256_1_0_0_1_n_n 192 rfl rfl).symm k) = ix2 k (j 1) := funext fun a => Fin.ext (by
    match a with
    | ⟨0, _⟩ => exact (rhs_row _ _).trans hk
    | ⟨1, _⟩ => exact rhs_col _ _)
  rw [el, er]
  rfl

/-- The bias row broadcast down the rows, at an entry: the row vector at that column. -/
theorem bias_apply (b : Vec Ideal S1x256 .f32) (j : S2000x256.Idx) :
    broadcastTo S2000x256 b broadcasts_S1x256_S2000x256 j = b (ix2 (0 : Fin 1) (j 1)) :=
  broadcastTo_apply b broadcasts_S1x256_S2000x256 j (ix2 (0 : Fin 1) (j 1)) (fun a => by
    match a with
    | ⟨0, _⟩ => show 0 = if (1 : Nat) = 1 then 0 else (j 0).val; rw [if_pos rfl]
    | ⟨1, _⟩ => show (j 1).val = if (256 : Nat) = 1 then 0 else (j 1).val; rw [if_neg (by decide)])

/-- THE BODY'S VALUE: the stored block is `rows` of the three loaded blocks. -/
theorem payload_eq_rows (x : Vec Ideal S2000x192 .f32) (w : Vec Ideal S192x256 .f32) (b : Vec Ideal S1x256 .f32) :
    k0_pay1 (F := Ideal) x w b = Cert.DenseRelu.rows x w b := by
  funext j
  unfold k0_pay1
  rw [maximumf_apply, addf_apply, broadcast_apply, shapeCast_self, shapeCast_self, product_apply, bias_apply]
  simp only [truncf_apply]
  show max _ (Ideal.ofBits .f32 0x00000000#32) = _
  rw [Ideal.ofBits_zero_f32]
  rfl

end Cert.KernelIdeal.BlockLayer

end
-- ==== Proof.Features.lean ====
/-
  The feature matrix, [100000, 192]: the node attributes (128 columns) joined to the 64 columns of the weighted segment mean —
  each edge's attributes scaled by its weight, scatter-added to the edge's target node, divided by the larger of the node's edge
  count and one, and scaled by the node's weight. Both programs compute it on the host by the same operations in the same order
  before anything else, so it is carried here as ONE function `features` of the five arguments it reads and never opened:
  what the kernel's region finds in its first operand is `features` of the arguments (`entry_features`), and `features` is the
  reference's own feature matrix (`features_eq_reference`: the two texts differ only in which copy of the shape records they
  name). The third operand the region finds is the bias reshaped to a row vector; at column `c` it holds `b c` (`entry_bias_apply`).
-/
import proofs.«124739_j8229157339893_1_alg».proof.Proof.Gen.KernelIdeal.Frame
import proofs.«124739_j8229157339893_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Features

open Cert.KernelIdeal Cert.KernelIdeal.Gen Idealize.ShloMosaic Idealize.ShloMosaic.TcCoe Idealize.SL.Sem Idealize.ShloMosaic.ValueIdx

variable {F : FTy → Type} [FloatOps F]

/-- The feature matrix as the kernel's host operations compute it from the edge targets `x0`, the edge attributes `x1`, the node
    attributes `x2`, the edge weights `x3` and the node weights `x4`. -/
def features (x0 : (⟨S2x1000000, .i32⟩ : BufTy).Contents (Elt F)) (x1 : (⟨S1000000x64, .f32⟩ : BufTy).Contents (Elt F)) (x2 : (⟨S100000x128, .f32⟩ : BufTy).Contents (Elt F))
    (x3 : (⟨S1000000, .f32⟩ : BufTy).Contents (Elt F)) (x4 : (⟨S100000, .f32⟩ : BufTy).Contents (Elt F)) : (⟨S100000x192, .f32⟩ : BufTy).Contents (Elt F) :=
  concatenate S100000x192 1 [⟨S100000x128, (x2)⟩, ⟨S100000x64, (mulf (Host.divf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![0, 0] (x0) slices_S2x1000000_S1x1000000_0_0) shapeCasts_S1x1000000_S1000000)) (mulf (x1) (broadcastInDim S1000000x64 ![0, 1] bcast_S1000000x1_S1000000x64_0_1 (broadcastInDim S1000000x1 ![0] bcast_S1000000_S1000000x1_0 (x3))))) (broadcastInDim S100000x64 ![0, 1] bcast_S100000x1_S100000x64_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![0, 0] (x0) slices_S2x1000000_S1x1000000_0_0) shapeCasts_S1x1000000_S1000000)) (broadcastInDim S1000000 ![] bcast_S_S1000000 (constant S_ .f32 0x3F800000#32))) (broadcastInDim S100000 ![] bcast_S_S100000 (constant S_ .f32 0x3F800000#32)))))) (broadcastInDim S100000x64 ![0, 1] bcast_S100000x1_S100000x64_0_1 (broadcastInDim S100000x1 ![0] bcast_S100000_S100000x1_0 (x4))))⟩] concatenates_S100000x128_S100000x64_S100000x192_d1

/-- It is the reference's feature matrix: the same operations of the same arguments. -/
theorem features_eq_reference (x0 : (⟨S2x1000000, .i32⟩ : BufTy).Contents (Elt F)) (x1 : (⟨S1000000x64, .f32⟩ : BufTy).Contents (Elt F)) (x2 : (⟨S100000x128, .f32⟩ : BufTy).Contents (Elt F))
    (x3 : (⟨S1000000, .f32⟩ : BufTy).Contents (Elt F)) (x4 : (⟨S100000, .f32⟩ : BufTy).Contents (Elt F)) :
    features (F := F) x0 x1 x2 x3 x4 = Cert.ReferenceIdeal.Read.val_main_v20 (F := F) x0 x1 x2 x3 x4 := rfl

variable (m : (ℓ : Loc nD τ sig) → Buf (Elt F) ℓ)

set_option maxHeartbeats 2000000 in
/-- The region's first operand, as the region finds it, is the feature matrix of the arguments. -/
theorem entry_features (c : Dev nD) :
    (V m c main_v20 : (⟨S100000x192, .f32⟩ : BufTy).Contents (Elt F))
      = features (m ((c : Thread nD τ).loc main_arg0)) (m ((c : Thread nD τ).loc main_arg1)) (m ((c : Thread nD τ).loc main_arg2))
          (m ((c : Thread nD τ).loc main_arg3)) (m ((c : Thread nD τ).loc main_arg4)) := by
  dsimp only [Gen.V, Gen.hostOps0]
  after_results_simp <;> rfl

/-- The region's third operand is the bias laid out as one row. -/
theorem entry_bias (c : Dev nD) :
    (V m c main_v21 : (⟨S1x256, .f32⟩ : BufTy).Contents (Elt F)) = shapeCast S1x256 (m ((c : Thread nD τ).loc main_arg6)) shapeCasts_S256_S1x256 := by
  dsimp only [Gen.V, Gen.hostOps0]
  after_results
  rfl

/-- Column `q` of that row is entry `q` of the bias. -/
theorem entry_bias_apply (c : Dev nD) (q : Fin 256) :
    (V m c main_v21 : (⟨S1x256, .f32⟩ : BufTy).Contents (Elt F)) (ix2 (0 : Fin 1) q) = m ((c : Thread nD τ).loc main_arg6) (ix1 q) := by
  rw [entry_bias]
  refine shapeCast_apply _ shapeCasts_S256_S1x256 (ix2 (0 : Fin 1) q) (ix1 q) ?_
  rw [Shape.rowMajor_val_one, Shape.rowMajor_val_two]
  show q.val = 0 * 256 + q.val
  omega

end Cert.KernelIdeal.Features

end
-- ==== Proof.KernelArray.lean ====
/-
  The kernel's result array, at the ideal values. The region runs its body at 50 points; point `t` is handed rows
  `2000 t … 2000 t + 1999` of the feature matrix, the whole weight matrix and the whole bias row, and writes back rows
  `2000 t … 2000 t + 1999` of the result. The body's value is `DenseRelu.rows` of what it loads (BlockLayer), and `rows` of a block of
  rows of the feature matrix is that block of rows of `DenseRelu.layer` (a row of the result depends on the same row of the
  features only), so each point writes back its block of ONE array, `layer features W b`. The 50 blocks tile the 100000 rows — row
  `r` lies in the block of point `r / 2000` — so after the run the whole result array is `layer features W b`.
-/
import proofs.«124739_j8229157339893_1_alg».proof.Proof.Gen.KernelIdeal.Value
import proofs.«124739_j8229157339893_1_alg».proof.Proof.BlockLayer
import proofs.«124739_j8229157339893_1_alg».proof.Proof.Features
import proofs.«124739_j8229157339893_1_alg».proof.Proof.DenseRelu

set_option maxRecDepth 16384

noncomputable section

namespace Cert.KernelIdeal.KernelArray

open Cert.KernelIdeal Cert.KernelIdeal.Gen Cert.KernelIdeal.Value Idealize.ShloMosaic Idealize.ShloMosaic.TcCoe Idealize.SL.Sem
open Idealize.ShloMosaic.ValueIdx Cert.DenseRelu
open Idealize.ShloMosaic.Pipeline (Dat)

variable (m : (ℓ : Loc nD τ sig) → Buf (Elt Ideal) ℓ) (ρ : Dev nD → PrngReg)

/-- Every block is read and written from its own origin. -/
theorem origin : (![0, 0] : Fin 2 → Nat) = fun _ => 0 := funext fun a => by fin_cases a <;> rfl

/-- The index maps, decided over the 50 points: the feature block and the result block of point `t` are the `t`-th blocks of rows;
    the weights and the bias row are always their one whole block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 50 := lt_of_lt_of_eq t.isLt N_0

/-- The row of the arrays that row `p` of point `t`'s blocks is. -/
def arrRow (t : Fin cfg0.N) (p : Fin 2000) : Fin 100000 := ⟨t.val * 2000 + p.val, by have := point_lt t; have := p.isLt; omega⟩

/-- The three operands as the region finds them, at their literal types. -/
abbrev featArr (c : Dev nD) : S100000x192.Idx → EReal := V m c main_v20
abbrev weightArr (c : Dev nD) : S192x256.Idx → EReal := V m c main_arg5
abbrev biasArr (c : Dev nD) : S1x256.Idx → EReal := V m c main_v21
/-- and the blocks of them the body loads at point `t`. -/
abbrev featBlk (c : Dev nD) (t : Fin cfg0.N) : S2000x192.Idx → EReal := iblk m c 0 t
abbrev weightBlk (c : Dev nD) (t : Fin cfg0.N) : S192x256.Idx → EReal := iblk m c 1 t
abbrev biasBlk (c : Dev nD) (t : Fin cfg0.N) : S1x256.Idx → EReal := iblk m c 2 t

/-- Row `p` of point `t`'s feature block is row `2000 t + p` of the feature matrix. -/
theorem featBlk_apply (c : Dev nD) (t : Fin cfg0.N) (p : Fin 2000) (k : Fin 192) :
    featBlk m c t (ix2 p k) = featArr m c (ix2 (arrRow t p) k) := by
  show V m c main_v20 (((cfg0.win 0).blk t).view.emb (ix2 p k)) = V m c main_v20 (ix2 (arrRow t p) k)
  obtain ⟨e0, e1, -⟩ := block_indices t
  have h : ((cfg0.win 0).blk t).view.emb (ix2 p k) = ix2 (arrRow t p) k := by
    funext a; apply Fin.ext
    match a with
    | ⟨0, _⟩ => show win0_0.index t (0 : Fin 2) * 2000 + 1 * p.val = t.val * 2000 + p.val; omega
    | ⟨1, _⟩ => show win0_0.index t (1 : Fin 2) * 192 + 1 * k.val = k.val; omega
  rw [h]

/-- The weight block is the weight matrix. -/
theorem weightBlk_apply (c : Dev nD) (t : Fin cfg0.N) (k : Fin 192) (q : Fin 256) :
    weightBlk m c t (ix2 k q) = weightArr m c (ix2 k q) := by
  show V m c main_arg5 (((cfg0.win 1).blk t).view.emb (ix2 k q)) = V m c main_arg5 (ix2 k q)
  obtain ⟨-, -, e2, e3, -⟩ := block_indices t
  have h : ((cfg0.win 1).blk t).view.emb (ix2 k q) = ix2 k q := by
    funext a; apply Fin.ext
    match a with
    | ⟨0, _⟩ => show win0_1.index t (0 : Fin 2) * 192 + 1 * k.val = k.val; omega
    | ⟨1, _⟩ => show win0_1.index t (1 : Fin 2) * 256 + 1 * q.val = q.val; omega
  rw [h]

/-- The bias block is the bias row. -/
theorem biasBlk_apply (c : Dev nD) (t : Fin cfg0.N) (q : Fin 256) :
    biasBlk m c t (ix2 (0 : Fin 1) q) = biasArr m c (ix2 (0 : Fin 1) q) := by
  show V m c main_v21 (((cfg0.win 2).blk t).view.emb (ix2 (0 : Fin 1) q)) = V m c main_v21 (ix2 (0 : Fin 1) q)
  obtain ⟨-, -, -, -, e4, e5, -⟩ := block_indices t
  have h : ((cfg0.win 2).blk t).view.emb (ix2 (0 : Fin 1) q) = ix2 (0 : Fin 1) q := by
    funext a; apply Fin.ext
    match a with
    | ⟨0, _⟩ => show win0_2.index t (0 : Fin 2) * 1 + 1 * (0 : Fin 1).val = (0 : Fin 1).val; omega
    | ⟨1, _⟩ => show win0_2.index t (1 : Fin 2) * 256 + 1 * q.val = q.val; omega
  rw [h]

/-- Entry `(p, q)` of point `t`'s result block sits at row `2000 t + p`, column `q` of the result array. -/
theorem resultBlk_emb (t : Fin cfg0.N) (p : Fin 2000) (q : Fin 256) :
    ((cfg0.win 3).blk t).view.emb (ix2 p q) = ix2 (arrRow t p) q := by
  obtain ⟨-, -, -, -, -, -, e6, e7⟩ := block_indices t
  funext a; apply Fin.ext
  match a with
  | ⟨0, _⟩ => show win0_3.index t (0 : Fin 2) * 2000 + 1 * p.val = t.val * 2000 + p.val; omega
  | ⟨1, _⟩ => show win0_3.index t (1 : Fin 2) * 256 + 1 * q.val = q.val; omega

/-- The array the region builds: the layer of the feature matrix it finds, of the weights and of the bias. -/
abbrev target (c : Dev nD) : S100000x256.Idx → EReal :=
  layer (featArr m c) (m ((c : Thread nD τ).loc main_arg5)) (m ((c : Thread nD τ).loc main_arg6))

/-- WHAT POINT `t` WRITES BACK is block `t` of `target`. -/
theorem flushed_eq (c : Dev nD) (t : Fin cfg0.N) :
    (dats m 0 c).flushed 3 t = ((cfg0.win 3).blk t).view.read (Elt Ideal) (target m c) := by
  rw [Value.flushed3]
  unfold out0_3
  rw [View.canon_unit_zero origin]
  simp only [View.ld_unit_zero (S := S2000x192) origin, View.ld_unit_zero (S := S192x256) origin, View.ld_unit_zero (S := S1x256) origin]
  rw [Cert.KernelIdeal.BlockLayer.payload_eq_rows]
  funext j
  obtain ⟨p, q, rfl⟩ : ∃ (p : Fin 2000) (q : Fin 256), j = ix2 p q := ⟨j 0, j 1, eq_ix2 j⟩
  show rows (featBlk m c t) (weightBlk m c t) (biasBlk m c t) (ix2 p q) = target m c (((cfg0.win 3).blk t).view.emb (ix2 p q))
  rw [resultBlk_emb]
  exact rows_eq_layer _ _ _ _ _ _ (arrRow t p) p q (featBlk_apply m c t p)
    (fun k => (weightBlk_apply m c t k q).trans (congrFun (V_main_arg5 m c) (ix2 k q)))
    ((biasBlk_apply m c t q).trans (Cert.KernelIdeal.Features.entry_bias_apply m c q))

/-- An index of the result array is in point `t`'s block iff each coordinate is in the block's range on its axis. -/
theorem mem_block (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v22).slice (win0_3.rect t)).set ↔ _
  rw [View.set_slice_whole, Rect.mem_set_unit]
  exact Iff.rfl

/-- THE BLOCKS TILE THE ARRAY: row `r` is in the block of point `r / 2000`. -/
theorem covered (i : S100000x256.Idx) : ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 50 := N_0
  have hlt : (i 0).val / 2000 < cfg0.N := by rw [hN]; omega
  obtain ⟨-, -, -, -, -, -, e6, e7⟩ := block_indices ⟨(i 0).val / 2000, hlt⟩
  have e6' : win0_3.index ⟨(i 0).val / 2000, hlt⟩ (0 : Fin 2) = (i 0).val / 2000 := e6
  refine ⟨⟨(i 0).val / 2000, hlt⟩, flush0_3 _, ?_⟩
  rw [mem_block]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e6']; omega
  | ⟨1, _⟩ =>
    show win0_3.index ⟨(i 0).val / 2000, hlt⟩ (1 : Fin 2) * 256 ≤ (i 1).val ∧ (i 1).val < win0_3.index ⟨(i 0).val / 2000, hlt⟩ (1 : Fin 2) * 256 + 256
    rw [e7]; omega

/-- THE RESULT ARRAY after the run is `target`. -/
theorem final (c : Dev nD) : (dats m 0 c).arrAt 3 cfg0.N = target m c :=
  (dats m 0 c).arrAt_eq_of_cover 3 (target m c) (fun t _ => flushed_eq m c t) covered

/-- The feature matrix the region finds is the reference's own feature matrix of the same arguments. -/
theorem featArr_eq (c : Dev nD) :
    featArr m c = Cert.ReferenceIdeal.Read.val_main_v20 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) :=
  (Cert.KernelIdeal.Features.entry_features m c).trans (Cert.KernelIdeal.Features.features_eq_reference _ _ _ _ _)

/-- THE KERNEL'S RUN, read: the result array ends at the layer of the reference's feature matrix of the arguments, of the weights and
    of the bias; the arguments are unchanged. -/
theorem run : θ_run defs (onTc (τ := τ) (main (F := Ideal))) ⟨m, fun _ => 0, ρ⟩ fun r => ∀ c : Dev nD,
      r.2.mem ((c : Thread nD τ).loc main_v22)
        = layer (Cert.ReferenceIdeal.Read.val_main_v20 (F := Ideal) (m ((c : Thread nD τ).loc main_arg0)) (m ((c : Thread nD τ).loc main_arg1))
            (m ((c : Thread nD τ).loc main_arg2)) (m ((c : Thread nD τ).loc main_arg3)) (m ((c : Thread nD τ).loc main_arg4)))
          (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (congrArg (fun X => layer X (m ((c : Thread nD τ).loc main_arg5)) (m ((c : Thread nD τ).loc main_arg6))) (featArr_eq m c))), (h c).2⟩)
    (Value.run_blocks m ρ)

end Cert.KernelIdeal.KernelArray

end
-- ==== Proof.RefLayer.lean ====
/-
  The reference program ends with `relu (x @ W + b)`: a `dot_general` contracting the 192 columns of its feature matrix with
  the rows of `W`, the bias broadcast along the rows, a sum, and a maximum with a broadcast zero. Read at an index (r, c), at the
  ideal values, that is `max (∑ k, x (r, k) · W (k, c) + b c) 0`: the function `DenseRelu.layer` of the feature matrix, whatever
  the feature matrix is. The feature matrix itself (the weighted segment mean joined to the node attributes) is left closed.
-/
import proofs.«124739_j8229157339893_1_alg».proof.Proof.Gen.ReferenceIdeal.Read
import proofs.«124739_j8229157339893_1_alg».proof.Proof.DenseRelu

noncomputable section

open scoped BigOperators

namespace Cert.ReferenceIdeal.RefLayer

open Cert.ReferenceIdeal Cert.ReferenceIdeal.Gen Cert.ReferenceIdeal.Read Idealize.ShloMosaic Idealize.ShloMosaic.ValueIdx

/-- The reference's result is the layer of its own feature matrix `val_main_v20`, of `W` and of `b`. -/
theorem result_eq_layer (x0 : (⟨S2x1000000, .i32⟩ : BufTy).Contents (Elt Ideal)) (x1 : (⟨S1000000x64, .f32⟩ : BufTy).Contents (Elt Ideal))
    (x2 : (⟨S100000x128, .f32⟩ : BufTy).Contents (Elt Ideal)) (x3 : (⟨S1000000, .f32⟩ : BufTy).Contents (Elt Ideal))
    (x4 : (⟨S100000, .f32⟩ : BufTy).Contents (Elt Ideal)) (x5 : (⟨S192x256, .f32⟩ : BufTy).Contents (Elt Ideal))
    (x6 : (⟨S256, .f32⟩ : BufTy).Contents (Elt Ideal)) :
    val_main_v25 (F := Ideal) x0 x1 x2 x3 x4 x5 x6
      = Cert.DenseRelu.layer (val_main_v20 (F := Ideal) x0 x1 x2 x3 x4) x5 x6 := by
  funext i
  rw [val_main_v25_apply, val_main_v24_apply, val_main_v21_apply, val_main_v23_apply, val_main_v22_apply,
    val_main_call0_v0_apply, val_main_call0_cst_apply]
  generalize val_main_v20 (F := Ideal) x0 x1 x2 x3 x4 = X
  have hl : ∀ k : Fin 192, lidx_main_v21 i k = ix2 (i 0) k := fun k => funext fun a => by
    match a with
    | ⟨0, _⟩ => rfl
    | ⟨1, _⟩ => rfl
  have hr : ∀ k : Fin 192, ridx_main_v21 i k = ix2 k (i 1) := fun k => funext fun a => by
    match a with
    | ⟨0, _⟩ => rfl
    | ⟨1, _⟩ => rfl
  have hb : idx_main_v22 (idx_main_v23 i) = ix1 (i 1) := funext fun a => by
    match a with
    | ⟨0, _⟩ => rfl
  simp only [hl, hr, hb, Ideal.maximumf_def, Ideal.addf_def, Ideal.ofBits_def, Ideal.ofBits_zero_f32]
  rfl

end Cert.ReferenceIdeal.RefLayer

end
-- ==== Proof.lean ====
/-
  A graph layer: every node's feature row is its 128 attributes joined to 64 columns of the weighted mean of the attributes of the
  edges that point at it, and the result is `max (features · W + b) 0`, [100000, 256].

  Both programs build the feature matrix on the host by the same operations (Features: it is carried as one closed function of the
  arguments). They differ in the last step only. The reference multiplies the whole [100000, 192] feature matrix by `W`, adds the
  broadcast bias and takes the maximum with zero; read at an entry that is `DenseRelu.layer` of its feature matrix (RefLayer). The
  kernel does the same 2000 rows at a time at 50 grid points, narrowing the operands of the product to bf16 first — the identity on
  extended reals — and accumulating into zero; each point writes its block of rows of `layer`, and the 50 blocks tile the array
  (BlockLayer, KernelArray). So both result arrays are `layer features W b`, with no algebraic law needed beyond reading both
  products as the same sum over the 192 shared columns, and in particular nothing is asked of the inputs' finiteness.

  The three frames are the generated ones (the reference's is its generated run with the result dropped); the idealization rewrote
  nothing, so `preserves` has nothing to show.
-/
import proofs.«124739_j8229157339893_1_alg».proof.Defs
import proofs.«124739_j8229157339893_1_alg».proof.Proof.Gen.Kernel
import proofs.«124739_j8229157339893_1_alg».proof.Proof.Gen.Kernel.Skeleton
import proofs.«124739_j8229157339893_1_alg».proof.Proof.Gen.Kernel.Launch
import proofs.«124739_j8229157339893_1_alg».proof.Proof.Gen.Kernel.Points
import proofs.«124739_j8229157339893_1_alg».proof.Proof.Gen.Kernel.Frame
import proofs.«124739_j8229157339893_1_alg».proof.Proof.Gen.KernelIdeal
import proofs.«124739_j8229157339893_1_alg».proof.Proof.Gen.KernelIdeal.Skeleton
import proofs.«124739_j8229157339893_1_alg».proof.Proof.Gen.KernelIdeal.Launch
import proofs.«124739_j8229157339893_1_alg».proof.Proof.Gen.KernelIdeal.Points
import proofs.«124739_j8229157339893_1_alg».proof.Proof.Gen.KernelIdeal.Frame
import proofs.«124739_j8229157339893_1_alg».proof.Proof.Gen.ReferenceIdeal
import proofs.«124739_j8229157339893_1_alg».proof.Proof.Gen.Pre_finite_inputs
import proofs.«124739_j8229157339893_1_alg».proof.Proof.Gen.KernelIdeal.Value
import proofs.«124739_j8229157339893_1_alg».proof.Proof.Gen.ReferenceIdeal.Run
import proofs.«124739_j8229157339893_1_alg».proof.Proof.Gen.ReferenceIdeal.Read
import proofs.«124739_j8229157339893_1_alg».proof.Proof.KernelArray
import proofs.«124739_j8229157339893_1_alg».proof.Proof.RefLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: it runs as its host operations do, and its arguments are no operation's result. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments the kernel's result array ends at `layer` of the reference's feature matrix of the
    kernel's arguments (KernelArray.run), and the reference's at `layer` of its feature matrix of its own arguments (its generated
    run, read by RefLayer): the same array. -/
theorem algebraic : Cert.algebraic_KernelIdeal_ReferenceIdeal := by
  intro m ρ m' ρ' _ hagree
  refine ⟨_, Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  exact (Cert.ReferenceIdeal.Read.val_main_v25_eq _ _ _ _ _ _ _).trans (Cert.ReferenceIdeal.RefLayer.result_eq_layer _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
